-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192 : Shape := ⟨2, ![4, 8192]⟩
abbrev S1024x12 : Shape := ⟨2, ![1024, 12]⟩
abbrev S1024 : Shape := ⟨1, ![1024]⟩
abbrev S_ : Shape := ⟨0, ![]⟩

class Facts : Prop where
  bcast_S_S1024x12 : S_.BroadcastsInDim S1024x12 (![] : Fin 0 → Fin S1024x12.rank)
  reducesTo_S1024x12_S_d0_1 : S1024x12.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : IVec S4x8192 32) (main_arg1 : FVec F S1024x12 .f32) (main_arg2 : FVec F S1024 .f32) : IVec S_ 1 :=
  let main_v0 : FVec F S1024x12 .f32 := Host.absf main_arg1
  let main_cst : FVec F S_ .f32 := constant S_ .f32 0x7F800000#32
  let main_v1 : FVec F S1024x12 .f32 := broadcastInDim S1024x12 ![] bcast_S_S1024x12 main_cst
  let main_v2 : IVec S1024x12 1 := cmpf .olt main_v0 main_v1
  let main_c : IVec S_ 1 := constantI S_ 1 1#1
  let main_v3 : IVec S_ 1 := (fun x v => Host.reduce IntOp.andi x v reducesTo_S1024x12_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S4x8192 : Shape := ⟨2, ![4, 8192]⟩
abbrev S1024x12 : Shape := ⟨2, ![1024, 12]⟩
abbrev S1024 : Shape := ⟨1, ![1024]⟩
abbrev S12x1024 : Shape := ⟨2, ![12, 1024]⟩
abbrev S4x8192x1024 : Shape := ⟨3, ![4, 8192, 1024]⟩
abbrev S4x256 : Shape := ⟨2, ![4, 256]⟩
abbrev S4x256x1024 : Shape := ⟨3, ![4, 256, 1024]⟩
abbrev S4x256x1 : Shape := ⟨3, ![4, 256, 1]⟩
abbrev S1x1024 : Shape := ⟨2, ![1, 1024]⟩
abbrev S1x1x1024 : Shape := ⟨3, ![1, 1, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x8192, .i32⟩
  | .hbm, ⟨1, _⟩ => ⟨S1024x12, .f32⟩
  | .hbm, ⟨2, _⟩ => ⟨S1024, .f32⟩
  | .hbm, ⟨3, _⟩ => ⟨S4x8192, .f32⟩
  | .hbm, ⟨4, _⟩ => ⟨S12x1024, .f32⟩
  | .hbm, ⟨5, _⟩ => ⟨S4x8192x1024, .f32⟩
  | .local _ .vmem, ⟨0, _⟩ => ⟨S4x256, .f32⟩
  | .local _ .vmem, ⟨1, _⟩ => ⟨S4x256, .f32⟩
  | .local _ .vmem, ⟨2, _⟩ => ⟨S12x1024, .f32⟩
  | .local _ .vmem, ⟨3, _⟩ => ⟨S1024, .f32⟩
  | .local _ .vmem, ⟨4, _⟩ => ⟨S4x256x1024, .f32⟩
  | .local _ .vmem, ⟨5, _⟩ => ⟨S4x256x1024, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x12_S12x1024_1_0 : S1024x12.Transposes [1, 0] S12x1024
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S12x1024_S12x1024_0_0 : ∀ a, (![0, 0] : Fin 2 → Nat) a + S12x1024.size a ≤ S12x1024.size a
  h_S12x1024 : 0 < S12x1024.numel
  shapeCasts_S12x1024_S12x1024 : S12x1024.ShapeCasts S12x1024
  shapeCasts_S4x256_S4x256x1 : S4x256.ShapeCasts S4x256x1
  slices_S12x1024_o0_0_S1x1024 : S12x1024.Slices ![0, 0] S1x1024
  shapeCasts_S1x1024_S1024 : S1x1024.ShapeCasts S1024
  shapeCasts_S1024_S1x1x1024 : S1024.ShapeCasts S1x1x1024
  broadcasts_S4x256x1_S4x256x1024 : S4x256x1.Broadcasts S4x256x1024
  broadcasts_S1x1x1024_S4x256x1024 : S1x1x1024.Broadcasts S4x256x1024
  slices_S12x1024_o1_0_S1x1024 : S12x1024.Slices ![1, 0] S1x1024
  slices_S12x1024_o2_0_S1x1024 : S12x1024.Slices ![2, 0] S1x1024
  slices_S12x1024_o3_0_S1x1024 : S12x1024.Slices ![3, 0] S1x1024
  slices_S12x1024_o4_0_S1x1024 : S12x1024.Slices ![4, 0] S1x1024
  slices_S12x1024_o5_0_S1x1024 : S12x1024.Slices ![5, 0] S1x1024
  slices_S12x1024_o6_0_S1x1024 : S12x1024.Slices ![6, 0] S1x1024
  slices_S12x1024_o7_0_S1x1024 : S12x1024.Slices ![7, 0] S1x1024
  slices_S12x1024_o8_0_S1x1024 : S12x1024.Slices ![8, 0] S1x1024
  slices_S12x1024_o9_0_S1x1024 : S12x1024.Slices ![9, 0] S1x1024
  slices_S12x1024_o10_0_S1x1024 : S12x1024.Slices ![10, 0] S1x1024
  slices_S12x1024_o11_0_S1x1024 : S12x1024.Slices ![11, 0] S1x1024
  inb_S1024_S1024_0 : ∀ a, (![0] : Fin 1 → Nat) a + S1024.size a ≤ S1024.size a
  h_S1024 : 0 < S1024.numel
  inb_S4x256x1024_S4x256x1024_0_0_0 : ∀ a, (![0, 0, 0] : Fin 3 → Nat) a + S4x256x1024.size a ≤ S4x256x1024.size a
  h_S4x256x1024 : 0 < S4x256x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256.size a ≤ S4x8192.size a
  hwx0_0 : ∀ i : grid0.Coords, EltTy.bits .f32 = 32 ∨ (Rect.block (s := S4x8192) S4x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x1024.size a ≤ S12x1024.size a
  hwx0_1 : ∀ i : grid0.Coords, EltTy.bits .f32 = 32 ∨ (Rect.block (s := S12x1024) S12x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x1024.size a ≤ S4x8192x1024.size a
  hwx0_3 : ∀ i : grid0.Coords, EltTy.bits .f32 = 32 ∨ (Rect.block (s := S4x8192x1024) S4x256x1024.size (cc0_transform_3 i) (hinb0_3 i)).WholeWords (EltTy.packing .f32)

variable [Facts₀]

abbrev win0_0 : Pipeline.Window sig grid0 :=
  Pipeline.Window.ofSpec (Memref.whole main_v0) S4x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192 : Shape := ⟨2, ![4, 8192]⟩
abbrev S1024x12 : Shape := ⟨2, ![1024, 12]⟩
abbrev S1024 : Shape := ⟨1, ![1024]⟩
abbrev S_ : Shape := ⟨0, ![]⟩
abbrev S4x8192x1 : Shape := ⟨3, ![4, 8192, 1]⟩
abbrev S4x8192x12 : Shape := ⟨3, ![4, 8192, 12]⟩
abbrev S4x8192x1024 : Shape := ⟨3, ![4, 8192, 1024]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S1024x12, .f32⟩
  | .hbm, ⟨2, _⟩ => ⟨S1024, .f32⟩
  | .hbm, ⟨3, _⟩ => ⟨S4x8192, .f32⟩
  | .hbm, ⟨4, _⟩ => ⟨S4x8192, .f32⟩
  | .hbm, ⟨5, _⟩ => ⟨S_, .f32⟩
  | .hbm, ⟨6, _⟩ => ⟨S4x8192, .f32⟩
  | .hbm, ⟨7, _⟩ => ⟨S_, .f32⟩
  | .hbm, ⟨8, _⟩ => ⟨S4x8192, .f32⟩
  | .hbm, ⟨9, _⟩ => ⟨S4x8192, .f32⟩
  | .hbm, ⟨10, _⟩ => ⟨S_, .f32⟩
  | .hbm, ⟨11, _⟩ => ⟨S4x8192, .f32⟩
  | .hbm, ⟨12, _⟩ => ⟨S4x8192, .f32⟩
  | .hbm, ⟨13, _⟩ => ⟨S_, .f32⟩
  | .hbm, ⟨14, _⟩ => ⟨S4x8192, .f32⟩
  | .hbm, ⟨15, _⟩ => ⟨S4x8192, .f32⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S_, .f32⟩
  | .hbm, ⟨20, _⟩ => ⟨S4x8192, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x1, .f32⟩
  | .hbm, ⟨34, _⟩ => ⟨S4x8192x1, .f32⟩
  | .hbm, ⟨35, _⟩ => ⟨S4x8192x1, .f32⟩
  | .hbm, ⟨36, _⟩ => ⟨S4x8192x1, .f32⟩
  | .hbm, ⟨37, _⟩ => ⟨S4x8192x12, .f32⟩
  | .hbm, ⟨38, _⟩ => ⟨S4x8192x1024, .f32⟩
  | .hbm, ⟨39, _⟩ => ⟨S1x1x1024, .f32⟩
  | .hbm, ⟨40, _⟩ => ⟨S4x8192x1024, .f32⟩
  | .hbm, ⟨41, _⟩ => ⟨S4x8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  concatenates_S4x8192x1_S4x8192x1_S4x8192x1_S4x8192x1_S4x8192x1_S4x8192x1_S4x8192x1_S4x8192x1_S4x8192x1_S4x8192x1_S4x8192x1_S4x8192x1_S4x8192x12_d2 : Shape.Concatenates [S4x8192x1, S4x8192x1, S4x8192x1, S4x8192x1, S4x8192x1, S4x8192x1, S4x8192x1, S4x8192x1, S4x8192x1, S4x8192x1, S4x8192x1, S4x8192x1] S4x8192x12 2
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  dot_S4x8192x12_S1024x12_S4x8192x1024_2_1_01_0_n_n_wf : DotDims.WF S4x8192x12 S1024x12 S4x8192x1024 [2] [1] [0, 1] [0] [] []

variable [Facts₀]

def dot_S4x8192x12_S1024x12_S4x8192x1024_2_1_01_0_n_n : DotDims S4x8192x12 S1024x12 S4x8192x1024 where
  lhsContracting := [2]
  rhsContracting := [1]
  lhsNonContracting := [0, 1]
  rhsNonContracting := [0]
  lhsBatch := []
  rhsBatch := []
  wf := dot_S4x8192x12_S1024x12_S4x8192x1024_2_1_01_0_n_n_wf

class Facts : Prop extends Facts₀ where

variable [Facts]
-- ==== Proof.TokenFeatures.lean ====
/-
  The function both programs compute, stated once over the argument arrays.

  A token id `n` (a 32-bit integer, read exactly as the real `t`) is turned into twelve polynomial features
      t², t, t+1,   t², 2t+2, −1,   t², 0, 2t+1,   t², 2t+1, 0
  and the result at `(b, s, d)` is the affine combination
      Σ_k feature_k(t(b, s)) · W(d, k) + bias(d).
  The constants `0, 1, 2` are kept as the f32 words the programs print; only the zero word is ever evaluated.
  A sum over twelve indices is also written out term by term, accumulated from a zero on the left: the order in which
  a multiply-accumulate loop adds them.  In the extended reals addition is commutative and associative at every value,
  infinities included, so no finiteness is needed for that.
-/
import Idealize.ShloMosaic.PureOps.Ideal
import Idealize.ShloMosaic.PureOps.Ideal.Laws
import Idealize.ShloMosaic.Lib.ValueIdx

noncomputable section

namespace Cert.TokenFeatures

open Idealize.ShloMosaic Idealize.ShloMosaic.ValueIdx

/-- The f32 words of the constants the feature polynomials use. -/
abbrev zero : Ideal .f32 := Ideal.ofBits .f32 0x00000000#32
abbrev one : Ideal .f32 := Ideal.ofBits .f32 0x3F800000#32
abbrev two : Ideal .f32 := Ideal.ofBits .f32 0x40000000#32

/-- The twelve features of a token value `t`. -/
def feat (t : Ideal .f32) : Fin 12 → Ideal .f32 :=
  ![t * t, t, t + one,
    t * t, two * t + two, -one,
    t * t, zero, two * t + one,
    t * t, two * t + one, zero]

/-- The affine combination of the features with one row of weights and a bias. -/
def lin (t : Ideal .f32) (w : Fin 12 → Ideal .f32) (b : Ideal .f32) : Ideal .f32 :=
  (∑ k : Fin 12, feat t k * w k) + b

/-- A sum of twelve terms, written out and accumulated from the left starting at a zero. -/
theorem sum_twelve {M : Type} [AddCommMonoid M] (f : Fin 12 → M) (z : M) (hz : z = 0) :
    ∑ k : Fin 12, f k = z + f 0 + f 1 + f 2 + f 3 + f 4 + f 5 + f 6 + f 7 + f 8 + f 9 + f 10 + f 11 := by
  subst hz
  simp only [Fin.sum_univ_castSucc, Fin.sum_univ_zero]
  rfl

/-- The affine combination as a multiply-accumulate chain: start from the zero word, add the twelve products in
    order, then the bias.  The sixth feature appears as `0 - 1`, which is `-1`. -/
theorem lin_chain (t : Ideal .f32) (w : Fin 12 → Ideal .f32) (b : Ideal .f32) :
    lin t w b = zero + t * t * w 0 + t * w 1 + (t + one) * w 2 + t * t * w 3 + (two * t + two) * w 4
      + (zero - one) * w 5 + t * t * w 6 + zero * w 7 + (two * t + one) * w 8 + t * t * w 9
      + (two * t + one) * w 10 + zero * w 11 + b := by
  unfold lin
  rw [sum_twelve _ zero Ideal.ofBits_zero_f32]
  rw [show zero - one = -one from by
    show Ideal.ofBits .f32 0x00000000#32 - one = -one
    rw [Ideal.ofBits_zero_f32, zero_sub]]
  rfl

/-- The whole result array as a function of the three argument arrays: tokens `[4, 8192]`, weights `[1024, 12]`,
    bias `[1024]`; result `[4, 8192, 1024]`. -/
def embed (tok : (⟨2, ![4, 8192]⟩ : Shape).Idx → BitVec 32) (W : (⟨2, ![1024, 12]⟩ : Shape).Idx → Ideal .f32)
    (bias : (⟨1, ![1024]⟩ : Shape).Idx → Ideal .f32) : (⟨3, ![4, 8192, 1024]⟩ : Shape).Idx → Ideal .f32 :=
  fun i => lin (FloatOps.sitofp .f32 (tok (ix2 (i 0) (i 1)))) (fun k => W (ix2 (i 2) k)) (bias (ix1 (i 2)))

end Cert.TokenFeatures

end
-- ==== Proof.KernelBlock.lean ====
/-
  What the kernel body leaves at one index of its output block.

  The body loads a [4, 256] block of token values `x0`, the whole [12, 1024] transposed weights `x1` and the [1024] bias
  `x2`, and stores a [4, 256, 1024] block.  At `(p, q, d)` that block holds the multiply-accumulate chain
      0 + f₀(t)·x1(0, d) + f₁(t)·x1(1, d) + … + f₁₁(t)·x1(11, d) + x2(d),      t = x0(p, q),
  which is the affine combination of the twelve features of `t` with column `d` of the weights, plus the bias.
  The block's value as one function of the loads at closed-form indices is the imported value leg's `E3`; here each of
  its index functions is identified with the coordinates it names, and the chain with the sum.
-/
import proofs.«146823_j15530601742779_1_alg».proof.Proof.KernelIdealValue
import proofs.«146823_j15530601742779_1_alg».proof.Proof.TokenFeatures
import Idealize.ShloMosaic.Lib.ValueIdx
import Idealize.ShloMosaic.PureOps.Ideal.Laws

noncomputable section

namespace Cert.KernelIdeal.BlockValue

open Cert.KernelIdeal Cert.KernelIdeal.Gen Cert.KernelIdeal.ValueP Idealize.ShloMosaic Idealize.ShloMosaic.ValueIdx
open Cert.TokenFeatures

theorem zeros2 : (![0, 0] : Fin 2 → Nat) = fun _ => 0 := funext fun a => by fin_cases a <;> rfl
theorem zeros1 : (![0] : Fin 1 → Nat) = fun _ => 0 := funext fun a => by fin_cases a; rfl

/-- A two-coordinate index is determined by its coordinates. -/
theorem idx2_eq {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- A one-coordinate index is determined by its coordinate. -/
theorem idx1_eq {n : Nat} (f : (⟨1, ![n]⟩ : Shape).Idx) (a : Fin n) (h0 : (f 0).val = a.val) : f = ix1 a :=
  funext fun d => Fin.ext (by match d with | ⟨0, _⟩ => exact h0)

/-- The output block at `(p, q, d)`: the affine combination of the features of the token value at `(p, q)` with
    column `d` of the transposed weights, plus the bias at `d`. -/
theorem block_apply (x0 : Vec Ideal S4x256 .f32) (x1 : Vec Ideal S12x1024 .f32) (x2 : Vec Ideal S1024 .f32)
    (p : Fin 4) (q : Fin 256) (d : Fin 1024) :
    out0_3 (F := Ideal) x0 x1 x2 (ix3 p q d)
      = lin (x0 (ix2 p q)) (fun k => x1 (ix2 k d)) (x2 (ix1 d)) := by
  unfold out0_3
  rw [canon3_eq, lin_chain]
  simp only [View.ld_unit_zero (S := S4x256) zeros2, View.ld_unit_zero (S := S12x1024) zeros2,
    View.ld_unit_zero (S := S1024) zeros1]
  -- every read of the token block is at (p, q)
  have t0 : ix3_0 (ix3 p q d) = ix2 p q := idx2_eq _ _ _ rfl rfl
  have t1 : ix3_1 (ix3 p q d) = ix2 p q := idx2_eq _ _ _ rfl rfl
  have t3 : ix3_3 (ix3 p q d) = ix2 p q := idx2_eq _ _ _ rfl rfl
  have t5 : ix3_5 (ix3 p q d) = ix2 p q := idx2_eq _ _ _ rfl rfl
  have t7 : ix3_7 (ix3 p q d) = ix2 p q := idx2_eq _ _ _ rfl rfl
  have t8 : ix3_8 (ix3 p q d) = ix2 p q := idx2_eq _ _ _ rfl rfl
  have t10 : ix3_10 (ix3 p q d) = ix2 p q := idx2_eq _ _ _ rfl rfl
  have t14 : ix3_14 (ix3 p q d) = ix2 p q := idx2_eq _ _ _ rfl rfl
  have t15 : ix3_15 (ix3 p q d) = ix2 p q := idx2_eq _ _ _ rfl rfl
  have t19 : ix3_19 (ix3 p q d) = ix2 p q := idx2_eq _ _ _ rfl rfl
  have t21 : ix3_21 (ix3 p q d) = ix2 p q := idx2_eq _ _ _ rfl rfl
  have t22 : ix3_22 (ix3 p q d) = ix2 p q := idx2_eq _ _ _ rfl rfl
  have t24 : ix3_24 (ix3 p q d) = ix2 p q := idx2_eq _ _ _ rfl rfl
  -- the k-th product reads row k of the transposed weights at column d
  have w0 : ix3_2 (ix3 p q d) = ix2 (0 : Fin 12) d := idx2_eq _ _ _ rfl rfl
  have w1 : ix3_4 (ix3 p q d) = ix2 (1 : Fin 12) d := idx2_eq _ _ _ rfl rfl
  have w2 : ix3_6 (ix3 p q d) = ix2 (2 : Fin 12) d := idx2_eq _ _ _ rfl rfl
  have w3 : ix3_9 (ix3 p q d) = ix2 (3 : Fin 12) d := idx2_eq _ _ _ rfl rfl
  have w4 : ix3_11 (ix3 p q d) = ix2 (4 : Fin 12) d := idx2_eq _ _ _ rfl rfl
  have w5 : ix3_13 (ix3 p q d) = ix2 (5 : Fin 12) d := idx2_eq _ _ _ rfl rfl
  have w6 : ix3_16 (ix3 p q d) = ix2 (6 : Fin 12) d := idx2_eq _ _ _ rfl rfl
  have w7 : ix3_18 (ix3 p q d) = ix2 (7 : Fin 12) d := idx2_eq _ _ _ rfl rfl
  have w8 : ix3_20 (ix3 p q d) = ix2 (8 : Fin 12) d := idx2_eq _ _ _ rfl rfl
  have w9 : ix3_23 (ix3 p q d) = ix2 (9 : Fin 12) d := idx2_eq _ _ _ rfl rfl
  have w10 : ix3_25 (ix3 p q d) = ix2 (10 : Fin 12) d := idx2_eq _ _ _ rfl rfl
  have w11 : ix3_27 (ix3 p q d) = ix2 (11 : Fin 12) d := idx2_eq _ _ _ rfl rfl
  have b0 : ix3_28 (ix3 p q d) = ix1 d := idx1_eq _ _ rfl
  dsimp only [E3]
  rw [t0, t1, t3, t5, t7, t8, t10, t14, t15, t19, t21, t22, t24,
    w0, w1, w2, w3, w4, w5, w6, w7, w8, w9, w10, w11, b0]
  rfl

end Cert.KernelIdeal.BlockValue

end
-- ==== Proof.KernelArray.lean ====
/-
  From the output blocks to the whole result array of the idealized kernel.

  Before the region, @main converts the token ids to reals and transposes the weights to [12, 1024].  Grid point `t`
  (32 points) reads columns `256 t … 256 t + 255` of the token values, the whole transposed weights and the whole
  bias, and writes the block of the result with the same second-axis range.  The block at a point is the affine
  combination of the token features (KernelBlock); each input block is a restriction of its array, so what point `t`
  writes back is block `t` of ONE function of the arrays; the 32 blocks tile the result, the point covering row `s`
  being `s / 256`; and with the transpose read back the result array is the specification of the arguments.
-/
import proofs.«146823_j15530601742779_1_alg».proof.Proof.KernelBlock
import Idealize.ShloMosaic.Lib.Pipeline.Value
import Idealize.ShloMosaic.Lib.ValueLayout
import Idealize.ShloMosaic.Lib.StableHlo.Run

noncomputable section

namespace Cert.KernelIdeal.ArrayValue

open Cert.KernelIdeal Cert.KernelIdeal.Gen Cert.KernelIdeal.ValueP Cert.KernelIdeal.BlockValue
open Idealize.ShloMosaic Idealize.ShloMosaic.TcCoe Idealize.SL.Sem Idealize.ShloMosaic.ValueIdx Idealize.ShloMosaic.StableHlo
open Idealize.ShloMosaic.Pipeline (Dat)
open Cert.TokenFeatures

variable (m : (ℓ : Loc nD τ sig) → Buf (Elt Ideal) ℓ) (ρ : Dev nD → PrngReg)

/-! ## The arrays the region finds -/

/-- The token values, the transposed weights and the bias as the region finds them, each at its literal type. -/
abbrev tokArr (c : Dev nD) : Vec Ideal S4x8192 .f32 := V m c main_v0
abbrev wtArr (c : Dev nD) : Vec Ideal S12x1024 .f32 := V m c main_v1
abbrev biasArr (c : Dev nD) : Vec Ideal S1024 .f32 := V m c main_arg2

/-- The token values are the token ids read as reals. -/
theorem tokArr_eq (c : Dev nD) :
    tokArr m c = sitofp (F := Ideal) .f32 (m ((c : Thread nD τ).loc main_arg0)) := by
  show V m c main_v0 = _
  dsimp only [V, hostOps0]; after_results

/-- The weights the region finds are the argument's transpose. -/
theorem wtArr_eq (c : Dev nD) :
    wtArr m c = transpose S12x1024 [1, 0] (m ((c : Thread nD τ).loc main_arg1)) transposes_S1024x12_S12x1024_1_0 := by
  show V m c main_v1 = _
  dsimp only [V, hostOps0]; after_results

theorem biasArr_eq (c : Dev nD) : biasArr m c = m ((c : Thread nD τ).loc main_arg2) := V_main_arg2 m c

/-- The result as one function of the arrays the region finds. -/
def regionResult (c : Dev nD) : Vec Ideal S4x8192x1024 .f32 := fun i =>
  lin (tokArr m c (ix2 (i 0) (i 1))) (fun k => wtArr m c (ix2 k (i 2))) (biasArr m c (ix1 (i 2)))

/-! ## What a grid point reads and writes -/

/-- The printed index maps over the 32 points: the token window and the output window move along their second axis
    with the point; the weights and the bias stay. -/
theorem index_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = t.val ∧ win0_3.index t (2 : Fin 3) = 0 :=
  (by decide +kernel : ∀ t : Fin grid0.N, _)

theorem point_lt (t : Fin cfg0.N) : t.val < 32 := lt_of_lt_of_eq t.isLt N_0

/-- Element `(p, q, d)` of point `t`'s output block sits at `(p, 256 t + q, d)` of the result array. -/
theorem emb_out (t : Fin cfg0.N) (p : Fin 4) (q : Fin 256) (d : Fin 1024) :
    ((cfg0.win 3).blk t).view.emb (ix3 p q d)
      = ix3 p (⟨t.val * 256 + q.val, by have := point_lt t; have := q.isLt; omega⟩ : Fin 8192) d := by
  obtain ⟨-, -, -, -, -, e30, e31, e32⟩ := index_facts t
  funext a; apply Fin.ext
  match a with
  | ⟨0, _⟩ => show win0_3.index t (0 : Fin 3) * 4 + 1 * p.val = p.val; omega
  | ⟨1, _⟩ => show win0_3.index t (1 : Fin 3) * 256 + 1 * q.val = t.val * 256 + q.val; omega
  | ⟨2, _⟩ => show win0_3.index t (2 : Fin 3) * 1024 + 1 * d.val = d.val; omega

/-- The token block at a point is the token array on the point's columns. -/
theorem tokBlk_apply (c : Dev nD) (t : Fin cfg0.N) (p : Fin 4) (q : Fin 256) :
    (iblk m c 0 t : Vec Ideal S4x256 .f32) (ix2 p q)
      = tokArr m c (ix2 p (⟨t.val * 256 + q.val, by have := point_lt t; have := q.isLt; omega⟩ : Fin 8192)) := by
  obtain ⟨e00, e01, -, -, -, -, -, -⟩ := index_facts t
  show V m c main_v0 (((cfg0.win 0).blk t).view.emb (ix2 p q)) = V m c main_v0 _
  have h : ((cfg0.win 0).blk t).view.emb (ix2 p q)
      = ix2 p (⟨t.val * 256 + q.val, by have := point_lt t; have := q.isLt; omega⟩ : Fin 8192) := by
    funext a; apply Fin.ext
    match a with
    | ⟨0, _⟩ => show win0_0.index t (0 : Fin 2) * 4 + 1 * p.val = p.val; omega
    | ⟨1, _⟩ => show win0_0.index t (1 : Fin 2) * 256 + 1 * q.val = t.val * 256 + q.val; omega
  rw [h]

/-- The weight block at every point is the whole transposed weight array. -/
theorem wtBlk_apply (c : Dev nD) (t : Fin cfg0.N) (k : Fin 12) (d : Fin 1024) :
    (iblk m c 1 t : Vec Ideal S12x1024 .f32) (ix2 k d) = wtArr m c (ix2 k d) := by
  obtain ⟨-, -, e10, e11, -, -, -, -⟩ := index_facts t
  show V m c main_v1 (((cfg0.win 1).blk t).view.emb (ix2 k d)) = V m c main_v1 _
  have h : ((cfg0.win 1).blk t).view.emb (ix2 k d) = ix2 k d := by
    funext a; apply Fin.ext
    match a with
    | ⟨0, _⟩ => show win0_1.index t (0 : Fin 2) * 12 + 1 * k.val = k.val; omega
    | ⟨1, _⟩ => show win0_1.index t (1 : Fin 2) * 1024 + 1 * d.val = d.val; omega
  rw [h]

/-- The bias block at every point is the whole bias. -/
theorem biasBlk_apply (c : Dev nD) (t : Fin cfg0.N) (d : Fin 1024) :
    (iblk m c 2 t : Vec Ideal S1024 .f32) (ix1 d) = biasArr m c (ix1 d) := by
  obtain ⟨-, -, -, -, e20, -, -, -⟩ := index_facts t
  show V m c main_arg2 (((cfg0.win 2).blk t).view.emb (ix1 d)) = V m c main_arg2 _
  have h : ((cfg0.win 2).blk t).view.emb (ix1 d) = ix1 d := by
    funext a; apply Fin.ext
    match a with
    | ⟨0, _⟩ => show win0_2.index t (0 : Fin 1) * 1024 + 1 * d.val = d.val; omega
  rw [h]

/-- WHAT POINT `t` WRITES BACK is block `t` of `regionResult`. -/
theorem flushed_eq (c : Dev nD) (t : Fin cfg0.N) :
    (dats m 0 c).flushed 3 t = ((cfg0.win 3).blk t).view.read (Elt Ideal) (regionResult m c) := by
  rw [flushed3]
  show (fun y : S4x256x1024.Idx => out0_3 (F := Ideal) (iblk m c 0 t) (iblk m c 1 t) (iblk m c 2 t) y)
    = fun y : S4x256x1024.Idx => regionResult m c (((cfg0.win 3).blk t).view.emb y)
  funext y
  obtain ⟨p, q, d, rfl⟩ : ∃ (p : Fin 4) (q : Fin 256) (d : Fin 1024), y = ix3 p q d := ⟨y 0, y 1, y 2, eq_ix3 y⟩
  rw [emb_out]
  refine (block_apply (iblk m c 0 t) (iblk m c 1 t) (iblk m c 2 t) p q d).trans ?_
  rw [tokBlk_apply m c t p q, biasBlk_apply m c t d]
  simp only [wtBlk_apply m c t]
  rfl

/-! ## The blocks tile the result -/

/-- An index of the result is in point `t`'s block iff each coordinate is in the block's range on its axis. -/
theorem mem_block (t : Fin cfg0.N) (i : S4x8192x1024.Idx) :
    i ∈ ((cfg0.win 3).blk t).view.set ↔ ∀ a : Fin 3, win0_3.index t a * S4x256x1024.size a ≤ (i a).val
      ∧ (i a).val < win0_3.index t a * S4x256x1024.size a + S4x256x1024.size a := by
  show i ∈ ((View.whole main_v2).slice (win0_3.rect t)).set ↔ _
  rw [View.set_slice_whole, Rect.mem_set_unit]
  exact Iff.rfl

/-- Every index of the result is in the block of the point that owns its second coordinate. -/
theorem covered (i : S4x8192x1024.Idx) :
    ∃ t : Fin cfg0.N, (cfg0.win 3).flush t = true ∧ i ∈ ((cfg0.win 3).blk t).view.set := by
  have hi0 : (i 0).val < 4 := (i 0).isLt
  have hi1 : (i 1).val < 8192 := (i 1).isLt
  have hi2 : (i 2).val < 1024 := (i 2).isLt
  have hN : (i 1).val / 256 < cfg0.N := by rw [show cfg0.N = 32 from N_0]; omega
  refine ⟨⟨(i 1).val / 256, hN⟩, flush0_3 _, ?_⟩
  obtain ⟨-, -, -, -, -, e30, e31, e32⟩ := index_facts ⟨(i 1).val / 256, hN⟩
  have e31' : win0_3.index ⟨(i 1).val / 256, hN⟩ (1 : Fin 3) = (i 1).val / 256 := e31
  rw [mem_block]
  intro a
  match a with
  | ⟨0, _⟩ =>
    show win0_3.index ⟨(i 1).val / 256, hN⟩ (0 : Fin 3) * 4 ≤ (i 0).val
      ∧ (i 0).val < win0_3.index ⟨(i 1).val / 256, hN⟩ (0 : Fin 3) * 4 + 4
    omega
  | ⟨1, _⟩ =>
    show win0_3.index ⟨(i 1).val / 256, hN⟩ (1 : Fin 3) * 256 ≤ (i 1).val
      ∧ (i 1).val < win0_3.index ⟨(i 1).val / 256, hN⟩ (1 : Fin 3) * 256 + 256
    omega
  | ⟨2, _⟩ =>
    show win0_3.index ⟨(i 1).val / 256, hN⟩ (2 : Fin 3) * 1024 ≤ (i 2).val
      ∧ (i 2).val < win0_3.index ⟨(i 1).val / 256, hN⟩ (2 : Fin 3) * 1024 + 1024
    omega

/-- THE RESULT ARRAY after the run, over the arrays the region finds. -/
theorem final_region (c : Dev nD) : (dats m 0 c).arrAt 3 cfg0.N = regionResult m c :=
  (dats m 0 c).arrAt_eq_of_cover 3 (regionResult m c) (fun t _ => flushed_eq m c t) covered

/-! ## Over the arguments -/

/-- With the conversion and the transpose read back, the result is the specification of the argument arrays. -/
theorem regionResult_eq (c : Dev nD) :
    regionResult m c = embed (m ((c : Thread nD τ).loc main_arg0)) (m ((c : Thread nD τ).loc main_arg1))
      (m ((c : Thread nD τ).loc main_arg2)) := by
  funext i
  unfold regionResult embed
  rw [tokArr_eq, biasArr_eq]
  have hw : ∀ k : Fin 12, wtArr m c (ix2 k (i 2)) = (m ((c : Thread nD τ).loc main_arg1)) (ix2 (i 2) k) := fun k => by
    rw [wtArr_eq]; exact transpose_ix2_apply _ _ k (i 2)
  simp only [hw]
  rfl

/-- The idealized kernel's run: the result array ends at the specification of the arguments, which are unchanged. -/
theorem run : θ_run defs (onTc (τ := τ) (main (F := Ideal))) ⟨m, fun _ => 0, ρ⟩ fun r => ∀ c : Dev nD,
      r.2.mem ((c : Thread nD τ).loc main_v2) = embed (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final_region m c).trans (regionResult_eq m c)), (h c).2⟩)
    (run_blocks m ρ)

end Cert.KernelIdeal.ArrayValue

end
-- ==== Proof.Reference.lean ====
/-
  The reference's result, index by index, is the affine combination of the token features.

  The reference converts the token ids to reals, builds the twelve feature arrays [4, 8192], lays each as a
  [4, 8192, 1] column, joins the twelve columns along the last axis into [4, 8192, 12], contracts that axis with the
  weights' second axis and adds the bias broadcast over the first two axes.  So at `(b, s, d)` it is
      Σ_k feature_k(t(b, s)) · W(d, k) + bias(d).
  The imported read-at-an-index lemmas give every stage but the join; the join is read here, piece by piece: the
  element at `(p, q, k)` of the joined array is the k-th column at `(p, q, 0)`.
-/
import proofs.«146823_j15530601742779_1_alg».proof.Proof.Gen.ReferenceIdeal.Read
import proofs.«146823_j15530601742779_1_alg».proof.Proof.TokenFeatures
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.TokenFeatures

/-- A [4, 8192] array laid as a [4, 8192, 1] column reads, at `(p, q, u)`, the array at `(p, q)`. -/
theorem column_apply {α : Type} (v : S4x8192.Idx → α) (p : Fin 4) (q : Fin 8192) (u : Fin 1) :
    broadcastInDim S4x8192x1 ![0, 1] bcast_S4x8192_S4x8192x1_0_1 v (ix3 p q u) = v (ix2 p q) :=
  broadcastInDim_apply _ bcast_S4x8192_S4x8192x1_0_1 v (ix3 p q u) (ix2 p q) (fun a => match a with
    | ⟨0, _⟩ => by show p.val = if (4 : Nat) = 1 then 0 else p.val; rw [if_neg (by decide)]
    | ⟨1, _⟩ => by show q.val = if (8192 : Nat) = 1 then 0 else q.val; rw [if_neg (by decide)])

/-- Twelve unit-width columns joined along the last axis: the element at `(p, q, k)` is the k-th piece at
    `(p, q, 0)`.  (The pieces before the k-th have total width k.) -/
theorem joined_apply {α : Type} (xs : List ((s : Shape) × (s.Idx → α)))
    (h : Shape.Concatenates (xs.map (·.1)) S4x8192x12 (2 : Fin S4x8192x12.rank)) (p : Fin 4) (q : Fin 8192) (k : Fin 12)
    (hk : k.val < xs.length) (x : S4x8192x1.Idx → α) (hxk : xs[k.val] = ⟨S4x8192x1, x⟩)
    (hpre : (((xs.take k.val).map (·.1)).map fun s =>
      if h : s.rank = S4x8192x12.rank then s.size ((2 : Fin S4x8192x12.rank).cast h.symm) else 0).sum = k.val) :
    concatenate S4x8192x12 2 xs h (ix3 p q k) = x (ix3 p q (0 : Fin 1)) :=
  concatenate_apply_piece (2 : Fin S4x8192x12.rank) xs h (ix3 p q k) k.val hk S4x8192x1 x hxk rfl k.val hpre
    (ix3 p q (0 : Fin 1))
    (fun b hb => by
      match b with
      | ⟨0, _⟩ => rfl
      | ⟨1, _⟩ => rfl
      | ⟨2, _⟩ => exact absurd rfl hb)
    rfl

/-- The joined feature array at `(p, q, k)` is the k-th feature of the token value at `(p, q)`. -/
theorem features_apply (x0 : (⟨S4x8192, .i32⟩ : BufTy).Contents (Elt Ideal)) (p : Fin 4) (q : Fin 8192) (k : Fin 12) :
    val_main_v27 (F := Ideal) x0 (ix3 p q k) = feat (FloatOps.sitofp .f32 (x0 (ix2 p q))) k := by
  unfold val_main_v27
  match k with
  | ⟨0, _⟩ =>
    refine (joined_apply _ _ p q _ (by simp) _ rfl rfl).trans ?_
    unfold val_main_v15; rw [column_apply]; rfl
  | ⟨1, _⟩ =>
    refine (joined_apply _ _ p q _ (by simp) _ rfl rfl).trans ?_
    unfold val_main_v16; rw [column_apply]; rfl
  | ⟨2, _⟩ =>
    refine (joined_apply _ _ p q _ (by simp) _ rfl rfl).trans ?_
    unfold val_main_v17; rw [column_apply, val_main_v10_apply, val_main_v9_apply, val_main_cst_3_apply]; rfl
  | ⟨3, _⟩ =>
    refine (joined_apply _ _ p q _ (by simp) _ rfl rfl).trans ?_
    unfold val_main_v18; rw [column_apply]; rfl
  | ⟨4, _⟩ =>
    refine (joined_apply _ _ p q _ (by simp) _ rfl rfl).trans ?_
    unfold val_main_v19
    rw [column_apply, val_main_v14_apply, val_main_v12_apply, val_main_v11_apply, val_main_cst_4_apply,
      val_main_v13_apply, val_main_cst_5_apply]
    rfl
  | ⟨5, _⟩ =>
    refine (joined_apply _ _ p q _ (by simp) _ rfl rfl).trans ?_
    unfold val_main_v20; rw [column_apply, val_main_v4_apply, val_main_v3_apply, val_main_cst_0_apply]; rfl
  | ⟨6, _⟩ =>
    refine (joined_apply _ _ p q _ (by simp) _ rfl rfl).trans ?_
    unfold val_main_v21; rw [column_apply]; rfl
  | ⟨7, _⟩ =>
    refine (joined_apply _ _ p q _ (by simp) _ rfl rfl).trans ?_
    unfold val_main_v22; rw [column_apply, val_main_v2_apply, val_main_cst_apply]; rfl
  | ⟨8, _⟩ =>
    refine (joined_apply _ _ p q _ (by simp) _ rfl rfl).trans ?_
    unfold val_main_v23
    rw [column_apply, val_main_v8_apply, val_main_v6_apply, val_main_v5_apply, val_main_cst_1_apply,
      val_main_v7_apply, val_main_cst_2_apply]
    rfl
  | ⟨9, _⟩ =>
    refine (joined_apply _ _ p q _ (by simp) _ rfl rfl).trans ?_
    unfold val_main_v24; rw [column_apply]; rfl
  | ⟨10, _⟩ =>
    refine (joined_apply _ _ p q _ (by simp) _ rfl rfl).trans ?_
    unfold val_main_v25
    rw [column_apply, val_main_v8_apply, val_main_v6_apply, val_main_v5_apply, val_main_cst_1_apply,
      val_main_v7_apply, val_main_cst_2_apply]
    rfl
  | ⟨11, _⟩ =>
    refine (joined_apply _ _ p q _ (by simp) _ rfl rfl).trans ?_
    unfold val_main_v26; rw [column_apply, val_main_v2_apply, val_main_cst_apply]; rfl
  | ⟨n + 12, hn⟩ => exact absurd hn (by omega)

/-- The reference's last stage at an index is the specification at that index. -/
theorem reference_apply (x0 : (⟨S4x8192, .i32⟩ : BufTy).Contents (Elt Ideal))
    (x1 : (⟨S1024x12, .f32⟩ : BufTy).Contents (Elt Ideal)) (x2 : (⟨S1024, .f32⟩ : BufTy).Contents (Elt Ideal))
    (i : S4x8192x1024.Idx) :
    val_main_v31 (F := Ideal) x0 x1 x2 i = embed x0 x1 x2 i := by
  obtain ⟨p, q, d, rfl⟩ : ∃ (p : Fin 4) (q : Fin 8192) (d : Fin 1024), i = ix3 p q d := ⟨i 0, i 1, i 2, eq_ix3 i⟩
  have hl : ∀ k : Fin 12, lidx_main_v28 (ix3 p q d) k = ix3 p q k := fun k => funext fun a => by
    match a with
    | ⟨0, _⟩ => rfl
    | ⟨1, _⟩ => rfl
    | ⟨2, _⟩ => rfl
  have hr : ∀ k : Fin 12, ridx_main_v28 (ix3 p q d) k = ix2 d k := fun k => funext fun a => by
    match a with
    | ⟨0, _⟩ => rfl
    | ⟨1, _⟩ => rfl
  have hb : idx_main_v29 (idx_main_v30 (ix3 p q d)) = ix1 d := funext fun a => by
    match a with
    | ⟨0, _⟩ => rfl
  rw [val_main_v31_apply, val_main_v28_apply, val_main_v30_apply, val_main_v29_apply, hb]
  simp only [hl, hr, features_apply]
  rfl

/-- The reference's result array is the specification of the argument arrays. -/
theorem reference_eq (x0 : (⟨S4x8192, .i32⟩ : BufTy).Contents (Elt Ideal))
    (x1 : (⟨S1024x12, .f32⟩ : BufTy).Contents (Elt Ideal)) (x2 : (⟨S1024, .f32⟩ : BufTy).Contents (Elt Ideal)) :
    val_main_v31 (F := Ideal) x0 x1 x2 = embed x0 x1 x2 :=
  funext fun i => reference_apply x0 x1 x2 i

end Cert.ReferenceIdeal.RefValue

end
-- ==== Proof.lean ====
/-
  A token-feature embedding: a Pallas kernel tiled over the sequence axis against its einsum reference, equal over the
  extended reals.

  Both programs read a token id `n(b, s)` (a 32-bit integer) exactly as a real `t`, form the twelve features
      t², t, t+1,   t², 2t+2, −1,   t², 0, 2t+1,   t², 2t+1, 0
  and return, at `(b, s, d)`,   Σ_k feature_k(t(b, s)) · W(d, k) + bias(d)   over [4, 8192, 1024].

  The kernel transposes `W` on the host, walks 32 grid points of 256 sequence positions each, and at a point
  accumulates the twelve products one after the other into a zero block before adding the bias; the reference joins
  the twelve feature arrays into [4, 8192, 12] and contracts with `W` in one `dot_general`.  The two differ only in
  the order the thirteen summands are added and in writing `−1` as `0 − 1` or as the negation of `1`.  Addition of
  extended reals is commutative and associative at every value, so the equality needs nothing of the inputs: the
  precondition (finite weights and bias) is never opened.

    * TokenFeatures — the specification `embed`, and a twelve-term sum as a left-to-right accumulation.
    * KernelBlock   — the kernel body's output block at an index is that accumulation.
    * KernelArray   — the 32 blocks tile the result array; with the transpose read back it is `embed` of the arguments.
    * Reference     — the reference's last stage, index by index, is `embed` of the arguments.

  The frames of the two kernel programs are the imported frame certificates; the reference's frame is its run with the
  result dropped.  The idealization rewrote nothing, so `preserves` has nothing to state.
-/
import proofs.«146823_j15530601742779_1_alg».proof.Defs
import proofs.«146823_j15530601742779_1_alg».proof.Proof.Gen.Kernel
import proofs.«146823_j15530601742779_1_alg».proof.Proof.Gen.Kernel.Skeleton
import proofs.«146823_j15530601742779_1_alg».proof.Proof.Gen.Kernel.Launch
import proofs.«146823_j15530601742779_1_alg».proof.Proof.Gen.Kernel.Points
import proofs.«146823_j15530601742779_1_alg».proof.Proof.Gen.Kernel.Frame
import proofs.«146823_j15530601742779_1_alg».proof.Proof.Gen.KernelIdeal
import proofs.«146823_j15530601742779_1_alg».proof.Proof.Gen.KernelIdeal.Skeleton
import proofs.«146823_j15530601742779_1_alg».proof.Proof.Gen.KernelIdeal.Launch
import proofs.«146823_j15530601742779_1_alg».proof.Proof.Gen.KernelIdeal.Points
import proofs.«146823_j15530601742779_1_alg».proof.Proof.Gen.KernelIdeal.Frame
import proofs.«146823_j15530601742779_1_alg».proof.Proof.Gen.ReferenceIdeal
import proofs.«146823_j15530601742779_1_alg».proof.Proof.Gen.Pre_finite_inputs
import proofs.«146823_j15530601742779_1_alg».proof.Proof.Gen.ReferenceIdeal.Run
import proofs.«146823_j15530601742779_1_alg».proof.Proof.Gen.ReferenceIdeal.Read
import proofs.«146823_j15530601742779_1_alg».proof.Proof.KernelArray
import proofs.«146823_j15530601742779_1_alg».proof.Proof.Reference
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result array at `embed` of the
    arguments: the kernel by tiling its blocks, the reference stage by stage. -/
theorem algebraic : Cert.algebraic_KernelIdeal_ReferenceIdeal := by
  intro m ρ m' ρ' _ hagree
  refine ⟨fun c => Cert.TokenFeatures.embed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v31_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
